-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S16384x2048 .f32) (main_arg2 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x2048 : Shape := ⟨2, ![16384, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S1x2048, .f32⟩
  | .hbm, ⟨4, _⟩ => ⟨S1x1, .f32⟩
  | .hbm, ⟨5, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x1, .f32⟩
  | .local _ .vmem, ⟨6, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S2048_S1x2048 : S2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x2048_S256x2048_0_0 : ∀ a, (![0, 0] : Fin 2 → Nat) a + S256x2048.size a ≤ S256x2048.size a
  h_S256x2048 : 0 < S256x2048.numel
  natLt_1_32 : 1 < 32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048 : Shape := ⟨1, ![2048]⟩
abbrev S_ : Shape := ⟨0, ![]⟩
abbrev S1x2048 : Shape := ⟨2, ![1, 2048]⟩
abbrev S16384 : Shape := ⟨1, ![16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S16384x2048, .i1⟩
  | .hbm, ⟨4, _⟩ => ⟨S16384x2048, .i1⟩
  | .hbm, ⟨5, _⟩ => ⟨S16384x2048, .f32⟩
  | .hbm, ⟨6, _⟩ => ⟨S_, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S16384_d1 : S16384x2048.ReducesTo [1] S16384
  h_S_ : 0 < S_.numel
  reducesTo_S16384_S_d0 : S16384.ReducesTo [0] S_

variable [Facts₀]

class Facts : Prop extends Facts₀ where

variable [Facts]
-- ==== Proof.KernelPieces.lean ====
/-
  What the body leaves in the accumulator and in the output block, case by case, as values.

  The body keeps one number, the accumulator, in a scratch buffer that lives across grid points, and copies it to the
  output block at the end of every point. At the first point it first resets the accumulator to zero; at the other
  points it finds what the point before left. With `step x0 x1 x2 acc` the accumulator after adding the tile
  `(x0, x1, x2)`'s contribution to `acc`:

  * first point: accumulator and output block both end at `step x0 x1 x2 0` (the reset's zero read back);
  * other points: both end at `step x0 x1 x2 xs`, `xs` what the accumulator held on entry.

  Each store and each load is through the buffer's whole rectangle, so a load after a store reads that store's value
  whatever was stored before it. The statements hold for any float instance: nothing of the arithmetic is used.
-/
import proofs.«160999_j47339129536786_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer rectangle. -/
theorem hz : (![0, 0] : Fin 2 → Nat) = fun _ => 0 := funext fun a => by fin_cases a <;> rfl

/-- A load through a buffer's whole rectangle, after a list of stores whose LAST one was through the whole rectangle,
    reads that last store's value. -/
theorem readCov_last_whole {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- A later point's accumulator: the tile's contribution added to what the point found. -/
theorem scratch_B (c : Dev nD) (i : grid0.Coords) (a1 : Memref sig .tc .vmem S256x2048 .f32) (h1 : a1.IsWhole)
    (a2 : Memref sig .tc .vmem S256x2048 .f32) (h2 : a2.IsWhole) (a3 : Memref sig .tc .vmem S1x2048 .f32) (h3 : a3.IsWhole)
    (a4 : Memref sig .tc .vmem S1x1 .f32) (h4 : a4.IsWhole) (a5 : Memref sig .tc .vmem S1x1 .f32) (h5 : a5.IsWhole)
    (hc : ¬cond0_0 i) (x0 x1 : Vec F S256x2048 .f32) (x2 : Vec F S1x2048 .f32) (xs : Vec F S1x1 .f32) :
    sout0_B_0 c i a1 h1 a2 h2 a3 h3 a4 h4 a5 h5 hc x0 x1 x2 xs = k0_pay2 x0 x1 x2 xs := by
  unfold sout0_B_0
  rw [View.read_writes_eq_canon _ _ _ (scover0_B_0 c i a1 h1 a2 h2 a3 h3 a4 h4 a5 h5 hc x0 x1 x2 xs)]
  unfold kernelRun0_B
  dsimp only
  sl_unfold_words
  rw [View.canon_unit_zero (S := S1x1) hz]
  simp only [View.readAt_eq_ld, h1.read_unread, h2.read_unread, h3.read_unread, h5.read_unread,
    View.ld_unit_zero (S := S256x2048) hz, View.ld_unit_zero (S := S1x2048) hz, View.ld_unit_zero (S := S1x1) hz]

/-- A later point's output block: the accumulator just stored, read back. -/
theorem out_B (c : Dev nD) (i : grid0.Coords) (a1 : Memref sig .tc .vmem S256x2048 .f32) (h1 : a1.IsWhole)
    (a2 : Memref sig .tc .vmem S256x2048 .f32) (h2 : a2.IsWhole) (a3 : Memref sig .tc .vmem S1x2048 .f32) (h3 : a3.IsWhole)
    (a4 : Memref sig .tc .vmem S1x1 .f32) (h4 : a4.IsWhole) (a5 : Memref sig .tc .vmem S1x1 .f32) (h5 : a5.IsWhole)
    (hc : ¬cond0_0 i) (x0 x1 : Vec F S256x2048 .f32) (x2 : Vec F S1x2048 .f32) (xs : Vec F S1x1 .f32) :
    out0_B_3 c i a1 h1 a2 h2 a3 h3 a4 h4 a5 h5 hc x0 x1 x2 xs = k0_pay2 x0 x1 x2 xs := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero (S := S1x1) hz, View.readCov_unit_zero (S := S1x1) _ hz]
  simp only [View.readAt_eq_ld, h1.read_unread, h2.read_unread, h3.read_unread, h5.read_unread,
    View.ld_unit_zero (S := S256x2048) hz, View.ld_unit_zero (S := S1x2048) hz, View.ld_unit_zero (S := S1x1) hz]

/-- The first point's accumulator: the tile's contribution added to the reset's zero, read back. -/
theorem scratch_A (c : Dev nD) (i : grid0.Coords) (a1 : Memref sig .tc .vmem S256x2048 .f32) (h1 : a1.IsWhole)
    (a2 : Memref sig .tc .vmem S256x2048 .f32) (h2 : a2.IsWhole) (a3 : Memref sig .tc .vmem S1x2048 .f32) (h3 : a3.IsWhole)
    (a4 : Memref sig .tc .vmem S1x1 .f32) (h4 : a4.IsWhole) (a5 : Memref sig .tc .vmem S1x1 .f32) (h5 : a5.IsWhole)
    (hc : cond0_0 i) (x0 x1 : Vec F S256x2048 .f32) (x2 : Vec F S1x2048 .f32) :
    sout0_A_0 c i a1 h1 a2 h2 a3 h3 a4 h4 a5 h5 hc x0 x1 x2 = k0_pay2 x0 x1 x2 (k0_pay1 (F := F)) := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S256x2048) hz,
    View.ld_unit_zero (S := S1x2048) hz]

/-- The first point's output block: the accumulator just stored (over the reset), read back. -/
theorem out_A (c : Dev nD) (i : grid0.Coords) (a1 : Memref sig .tc .vmem S256x2048 .f32) (h1 : a1.IsWhole)
    (a2 : Memref sig .tc .vmem S256x2048 .f32) (h2 : a2.IsWhole) (a3 : Memref sig .tc .vmem S1x2048 .f32) (h3 : a3.IsWhole)
    (a4 : Memref sig .tc .vmem S1x1 .f32) (h4 : a4.IsWhole) (a5 : Memref sig .tc .vmem S1x1 .f32) (h5 : a5.IsWhole)
    (hc : cond0_0 i) (x0 x1 : Vec F S256x2048 .f32) (x2 : Vec F S1x2048 .f32) :
    out0_A_3 c i a1 h1 a2 h2 a3 h3 a4 h4 a5 h5 hc x0 x1 x2 = k0_pay2 x0 x1 x2 (k0_pay1 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero (S := S1x1) hz, readCov_last_whole (S := S1x1) _ hz, View.readCov_unit_zero (S := S1x1) _ hz]
  simp only [View.readAt_eq_ld, h1.read_unread, h2.read_unread, h3.read_unread, View.ld_unit_zero (S := S256x2048) hz,
    View.ld_unit_zero (S := S1x2048) hz]

end Cert.KernelIdeal.Pieces

end
-- ==== Proof.Spec.lean ====
/-
  The loss both programs compute, as one function of the three argument arrays, and the law that joins them.

  For outputs `O`, targets `T` (both 16384 × 2048) and feature weights `W` (2048), an entry's term is the square of
  `(T r k - O r k) · μ · W k`, where `μ` is the entry's mask read as a number. The mask says "the target is a
  number": it is the negation of the comparison `T r k ≠ T r k`. On the extended reals nothing differs from itself,
  so the mask bit is always set, `μ = 1`, and the masked target is the target. A row's loss is the sum of its 2048
  terms divided by the sum of its 2048 mask values; the result is the sum of the 16384 row losses.

  One program sums the row losses in one sweep. The other cuts the rows into 64 tiles of 256 consecutive rows, sums
  each tile, and adds the tile sums one after the other into an accumulator that starts at zero. Addition of extended
  reals is commutative and associative, so the two agree (`partialSum_last`): no finiteness is needed.
-/
import Idealize.ShloMosaic.PureOps.Ideal
import Idealize.ShloMosaic.PureOps.Ideal.Laws
import Mathlib.Algebra.BigOperators.Fin
import Mathlib.Algebra.BigOperators.Intervals

noncomputable section

namespace Cert.RowMse

open Idealize.ShloMosaic

/-! ## The mask bit on the extended reals -/

/-- An extended real does not differ from itself, under the ordered reading of "not equal"; -/
theorem cmp_one_self (x : EReal) : Ideal.cmp .one x x = 0#1 := by simp [Ideal.cmp]
/-- nor under the unordered reading: nothing is unordered here, so the two readings are one. -/
theorem cmp_une_self (x : EReal) : Ideal.cmp .une x x = 0#1 := by simp [Ideal.cmp]

/-- The mask value of an entry whose bit is set, read unsigned from the bit; -/
theorem one_toNat_cast : (((1#1 : BitVec 1).toNat : ℝ) : EReal) = ((1 : ℝ) : EReal) := by
  have h : (1#1 : BitVec 1).toNat = 1 := by decide
  rw [h, Nat.cast_one]
/-- and read signed from the bit widened, without sign, to 32 bits: the same number `1`. -/
theorem one_setWidth_toInt_cast : ((((1#1 : BitVec 1).setWidth 32).toInt : ℝ) : EReal) = ((1 : ℝ) : EReal) := by
  have h : ((1#1 : BitVec 1).setWidth 32).toInt = 1 := by decide
  rw [h, Int.cast_one]

/-! ## The loss -/

/-- One entry's term: the squared residual, masked (the mask value is `1`) and weighted. -/
def sqTerm (o t w : EReal) : EReal := (t - o) * ((1 : ℝ) : EReal) * w * ((t - o) * ((1 : ℝ) : EReal) * w)

/-- A row's loss: the sum of its terms over the sum of its mask values. -/
def rowLoss (O T : Fin 16384 → Fin 2048 → EReal) (W : Fin 2048 → EReal) (r : Fin 16384) : EReal :=
  Ideal.div (∑ k : Fin 2048, sqTerm (O r k) (T r k) (W k)) (∑ _k : Fin 2048, ((1 : ℝ) : EReal))

/-- The result: the sum of the row losses. -/
def loss (O T : Fin 16384 → Fin 2048 → EReal) (W : Fin 2048 → EReal) : EReal := ∑ r : Fin 16384, rowLoss O T W r

/-! ## Tiles of 256 rows -/

/-- A function of the rows, continued by zero past the last row, so that it can be read at `256 · n + p`. -/
def ext (g : Fin 16384 → EReal) (r : ℕ) : EReal := if h : r < 16384 then g ⟨r, h⟩ else 0

theorem ext_of_lt (g : Fin 16384 → EReal) (r : ℕ) (h : r < 16384) : ext g r = g ⟨r, h⟩ := dif_pos h

/-- The sum of `g` over the 256 rows of tile `n`. -/
def tileSum (g : Fin 16384 → EReal) (n : ℕ) : EReal := ∑ p : Fin 256, ext g (256 * n + p.val)

/-- The accumulator after tile `n`: the tile sums up to it. -/
def partialSum (g : Fin 16384 → EReal) (n : ℕ) : EReal := ∑ j ∈ Finset.range (n + 1), tileSum g j

theorem partialSum_zero (g : Fin 16384 → EReal) : partialSum g 0 = tileSum g 0 := by
  unfold partialSum; rw [Finset.sum_range_one]

theorem partialSum_succ (g : Fin 16384 → EReal) (n : ℕ) : partialSum g (n + 1) = partialSum g n + tileSum g (n + 1) := by
  unfold partialSum; rw [Finset.sum_range_succ]

/-- Summing `a` consecutive blocks of `b` values each is summing the first `a · b` values. -/
theorem sum_blocks (f : ℕ → EReal) (b : ℕ) :
    ∀ a : ℕ, ∑ n ∈ Finset.range a, ∑ p : Fin b, f (b * n + p.val) = ∑ r ∈ Finset.range (a * b), f r
  | 0 => by simp
  | a + 1 => by
    rw [Finset.sum_range_succ, sum_blocks f b a, Nat.succ_mul, Finset.sum_range_add, Finset.sum_range (fun x => f (a * b + x)),
      Nat.mul_comm b a]

/-- After the last of the 64 tiles the accumulator holds the sum over all 16384 rows. -/
theorem partialSum_last (g : Fin 16384 → EReal) : partialSum g 63 = ∑ r : Fin 16384, g r := by
  unfold partialSum tileSum
  rw [sum_blocks (ext g) 256 64, Finset.sum_range (ext g)]
  exact Finset.sum_congr rfl fun r _ => ext_of_lt g r.val r.isLt

end Cert.RowMse

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibColumnSum.lean ====
/-
  A column summed down its rows, and a sum over a vector's indices, read by coordinates.

  * `sum_idx1` — a sum over the index set of a vector `[n]` is the sum over `Fin n` of the entries by coordinate;
  * `multiReduction_add_column_apply` — the sum over the first axis of a column `[a, 1]`, at its one index, is
    `∑ₚ src (p, u)` at the ideal values;
  * `idx11_eq` — the index set of a `[1, 1]` array has one element.

  All are generic in the extents; none uses anything of the arithmetic beyond the reading of a one-axis sum.
-/
import Idealize.ShloMosaic.Lib.ValueIdx
import Idealize.ShloMosaic.PureOps.Ideal.Laws

namespace Cert.ColumnSum

open Idealize.ShloMosaic Idealize.ShloMosaic.ValueIdx

/-- A vector's index is its one coordinate. -/
def idxEquiv1 {n : ℕ} : (⟨1, ![n]⟩ : Shape).Idx ≃ Fin n where
  toFun j := j 0
  invFun a := ix1 a
  left_inv j := (eq_ix1 j).symm
  right_inv _ := rfl

/-- A sum over a vector's indices is the sum over its coordinates. -/
theorem sum_idx1 {M : Type*} [AddCommMonoid M] {n : ℕ} (f : (⟨1, ![n]⟩ : Shape).Idx → M) :
    ∑ j, f j = ∑ a : Fin n, f (ix1 a) :=
  (Equiv.sum_comp (idxEquiv1 (n := n)).symm f).symm

/-- The sum over the first axis of a column `[a, 1]`, read at the ideal values at its one index `u`: the sum of the
    column's `a` entries. -/
theorem multiReduction_add_column_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction .add [0] ⟨1, ![1]⟩ src acc h hφ hacc (ix1 u) = ∑ p : Fin a, src (ix2 p u) :=
  (Ideal.multiReduction_add_single src acc h hφ hacc (ix1 u)).trans
    (Finset.sum_congr rfl fun p _ => congrArg src (funext fun ax => Fin.ext (by
      match ax with
      | ⟨0, _⟩ => rfl
      | ⟨1, _⟩ => rfl)))

/-- A `[1, 1]` array has one index. -/
theorem idx11_eq (i : (⟨2, ![1, 1]⟩ : Shape).Idx) : i = ix2 (0 : Fin 1) (0 : Fin 1) := by
  funext ax
  apply Fin.ext
  match ax with
  | ⟨0, _⟩ => have := idx2_lt0 i; show (i 0).val = 0; omega
  | ⟨1, _⟩ => have := idx2_lt1 i; show (i 1).val = 0; omega

end Cert.ColumnSum
-- ==== Proof.KernelTile.lean ====
/-
  What one grid point adds to the accumulator, at the ideal values.

  The body loads a tile of 256 rows of the outputs (`x0`) and of the targets (`x1`), the row of feature weights
  (`x2`) and the accumulator (`acc`, one number), and stores back `acc + Σₚ (Σₖ term(p, k)) / (Σₖ μ(p, k))`: per row
  `p` of the tile the sum of the 2048 squared, masked, weighted residuals over the sum of the 2048 mask values, these
  256 quotients summed. The mask bit of an entry is the negation of "the target differs from itself", which never
  holds of an extended real: the bit is set, its value `μ` is `1` and the masked target is the target.
-/
import proofs.«160999_j47339129536786_1_alg».proof.Proof.Gen.KernelIdeal.Skeleton
import proofs.«160999_j47339129536786_1_alg».proof.Proof.Spec
import proofs.«160999_j47339129536786_1_alg».proof.Proof.LibColumnLayout
import proofs.«160999_j47339129536786_1_alg».proof.Proof.LibColumnSum
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.ValueIdx Cert.KernelIdeal Cert.KernelIdeal.Gen
open Cert.RowMse Cert.ColumnLayout Cert.ColumnSum

/-- The mask bit of any entry is set: the comparison "differs from itself" fails, and its negation (the exclusive
    or with `true`) holds. -/
theorem mask_bit (t : EReal) : IntOp.xori (Ideal.cmp .one t t) 1#1 = 1#1 := by
  rw [cmp_one_self]; decide

/-- The tile's mask, entry by entry: every bit is set. -/
theorem mask_apply (x1 : FVec Ideal S256x2048 .f32) (i : S256x2048.Idx) :
    xori (cmpf .one x1 x1) (constantI S256x2048 1 1#1) i = 1#1 :=
  mask_bit (x1 i)

/-- The tile's mask values, entry by entry: the set bit widened to a word and read as a number is `1`. -/
theorem maskValue_apply (x1 : FVec Ideal S256x2048 .f32) (i : S256x2048.Idx) :
    (sitofp .f32 (extui 32 (xori (cmpf .one x1 x1) (constantI S256x2048 1 1#1)) natLt_1_32) : FVec Ideal S256x2048 .f32) i
      = ((1 : ℝ) : EReal) := by
  show ((((xori (cmpf .one x1 x1) (constantI S256x2048 1 1#1) i).setWidth 32).toInt : ℝ) : EReal) = _
  rw [mask_apply, one_setWidth_toInt_cast]

/-- One entry's masked, weighted residual: row `p` of the tile, feature `k`. -/
theorem residual_apply (x0 x1 : FVec Ideal S256x2048 .f32) (x2 : FVec Ideal S1x2048 .f32) (p : Fin 256) (k : Fin 2048) :
    mulf (mulf (subf (select (xori (cmpf .one x1 x1) (constantI S256x2048 1 1#1)) x1
            (broadcast S256x2048 (FloatOps.ofBits .f32 0x00000000#32))) x0)
          (sitofp .f32 (extui 32 (xori (cmpf .one x1 x1) (constantI S256x2048 1 1#1)) natLt_1_32)))
        (broadcastTo S256x2048 (shapeCast S1x2048 x2 shapeCasts_S1x2048_S1x2048) broadcasts_S1x2048_S256x2048) (ix2 p k)
      = (x1 (ix2 p k) - x0 (ix2 p k)) * ((1 : ℝ) : EReal) * x2 (ix2 (0 : Fin 1) k) := by
  rw [mulf_apply, mulf_apply, subf_apply, select_apply, mask_apply, select_one, maskValue_apply,
    broadcastTo_1b_ab_apply, shapeCast_self]

/-- The reset stores zero. -/
theorem reset_apply (i : S1x1.Idx) : (k0_pay1 (F := Ideal)) i = 0 := by
  unfold k0_pay1
  rw [shapeCast_self]
  exact Ideal.ofBits_zero_f32

/-- A tile's contribution: the accumulator plus the sum over the tile's 256 rows of each row's quotient. -/
theorem accumulate_apply (x0 x1 : FVec Ideal S256x2048 .f32) (x2 : FVec Ideal S1x2048 .f32) (acc : FVec Ideal S1x1 .f32) :
    k0_pay2 x0 x1 x2 acc (ix2 (0 : Fin 1) (0 : Fin 1))
      = acc (ix2 (0 : Fin 1) (0 : Fin 1))
        + ∑ p : Fin 256, Ideal.div (∑ k : Fin 2048, sqTerm (x0 (ix2 p k)) (x1 (ix2 p k)) (x2 (ix2 (0 : Fin 1) k)))
            (∑ _k : Fin 2048, ((1 : ℝ) : EReal)) := by
  unfold k0_pay2
  dsimp only
  rw [shapeCast_self, addf_apply, shapeCast_a_1a_apply]
  refine congrArg (acc _ + ·) ?_
  refine (multiReduction_add_column_apply _ _ _ _ _ (0 : Fin 1)).trans ?_
  refine Finset.sum_congr rfl fun p _ => ?_
  refine congrArg₂ Ideal.div ?_ ?_
  · refine (shapeCast_a_a1_apply _ _ p (0 : Fin 1)).trans ?_
    refine (multiReduction_add_rows_apply _ _ _ _ _ p).trans ?_
    refine Finset.sum_congr rfl fun k _ => ?_
    show _ * _ = sqTerm _ _ _
    unfold sqTerm
    rw [residual_apply]
  · refine (shapeCast_a_a1_apply _ _ p (0 : Fin 1)).trans ?_
    refine (multiReduction_add_rows_apply _ _ _ _ _ p).trans ?_
    exact Finset.sum_congr rfl fun k _ => maskValue_apply x1 (ix2 p k)

end Cert.KernelIdeal.Tile

end
-- ==== Proof.KernelRun.lean ====
/-
  The kernel's run read as a value: the result array ends holding the loss.

  Grid point `t` works on rows `256·t … 256·t + 255` of the outputs and targets and on the whole row of feature
  weights (laid out as a 1 × 2048 array by a reshape before the call). Its contribution to the accumulator is the
  sum of those rows' losses (`tile_eq`). The accumulator is reset at point 0 and carried from point to point, so
  after point `n` both it and the output block hold the tile sums up to `n` (`carried_eq`, by induction on the
  point). The output block is written back once, after point 63; it is the whole 1 × 1 result array, which therefore
  ends at the sum over all 64 tiles, that is over all 16384 rows (`final_eq`). The reshape after the call reads that
  one number as a scalar (`run`).
-/
import proofs.«160999_j47339129536786_1_alg».proof.Proof.KernelPieces
import proofs.«160999_j47339129536786_1_alg».proof.Proof.KernelTile
import Idealize.ShloMosaic.Lib.Pipeline.Value
import Idealize.ShloMosaic.Lib.StableHlo.Run
import Idealize.ShloMosaic.Lib.Tactic
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.LossRun

open Cert.KernelIdeal Cert.KernelIdeal.Gen Cert.RowMse Cert.ColumnSum

variable (m : (ℓ : Loc nD τ sig) → Buf (Elt Ideal) ℓ) (ρ : Dev nD → PrngReg)

/-! ## The arrays by coordinates -/

/-- The outputs, the targets and the feature weights as launched, -/
abbrev outputs (c : Dev nD) : FVec Ideal S16384x2048 .f32 := m ((c : Thread nD τ).loc main_arg0)
abbrev targets (c : Dev nD) : FVec Ideal S16384x2048 .f32 := m ((c : Thread nD τ).loc main_arg1)
abbrev weights (c : Dev nD) : FVec Ideal S2048 .f32 := m ((c : Thread nD τ).loc main_arg2)

/-- and the loss of each row of them. -/
abbrev rowG (c : Dev nD) : Fin 16384 → EReal :=
  rowLoss (fun r k => outputs m c (ix2 r k)) (fun r k => targets m c (ix2 r k)) (fun k => weights m c (ix1 k))

/-! ## A point's blocks -/

/-- The three input blocks of point `t`, at their literal shapes. -/
abbrev oblk (c : Dev nD) (t : Fin cfg0.N) : FVec Ideal S256x2048 .f32 := iblk m c 0 t
abbrev tblk (c : Dev nD) (t : Fin cfg0.N) : FVec Ideal S256x2048 .f32 := iblk m c 1 t
abbrev wblk (c : Dev nD) (t : Fin cfg0.N) : FVec Ideal S1x2048 .f32 := iblk m c 2 t

/-- Point `t`'s block of the outputs and of the targets is block `(t, 0)`; the weights' is always block `(0, 0)`. -/
theorem index_rows : ∀ t : Fin cfg0.N, (win0_0.index t 0 = t.val ∧ win0_0.index t 1 = 0)
    ∧ (win0_1.index t 0 = t.val ∧ win0_1.index t 1 = 0) ∧ (win0_2.index t 0 = 0 ∧ win0_2.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = 0 ∧ win0_2.index t 1 = 0))

/-- Row `p` of point `t`'s block of the outputs is row `256·t + p` of the outputs. -/
theorem oblk_apply (c : Dev nD) (t : Fin cfg0.N) (p : Fin 256) (k : Fin 2048) (h : 256 * t.val + p.val < 16384) :
    oblk m c t (ix2 p k) = outputs m c (ix2 ⟨256 * t.val + p.val, h⟩ k) := by
  unfold oblk iblk
  rw [View.read_apply]
  show V m c main_arg0 _ = m ((c : Thread nD τ).loc main_arg0) _
  rw [V_main_arg0]
  congr 1
  funext a
  apply Fin.ext
  match a with
  | ⟨0, _⟩ => show win0_0.index t 0 * 256 + 1 * p.val = 256 * t.val + p.val; rw [(index_rows t).1.1]; omega
  | ⟨1, _⟩ => show win0_0.index t 1 * 2048 + 1 * k.val = k.val; rw [(index_rows t).1.2]; omega

/-- The same for the targets. -/
theorem tblk_apply (c : Dev nD) (t : Fin cfg0.N) (p : Fin 256) (k : Fin 2048) (h : 256 * t.val + p.val < 16384) :
    tblk m c t (ix2 p k) = targets m c (ix2 ⟨256 * t.val + p.val, h⟩ k) := by
  unfold tblk iblk
  rw [View.read_apply]
  show V m c main_arg1 _ = m ((c : Thread nD τ).loc main_arg1) _
  rw [V_main_arg1]
  congr 1
  funext a
  apply Fin.ext
  match a with
  | ⟨0, _⟩ => show win0_1.index t 0 * 256 + 1 * p.val = 256 * t.val + p.val; rw [(index_rows t).2.1.1]; omega
  | ⟨1, _⟩ => show win0_1.index t 1 * 2048 + 1 * k.val = k.val; rw [(index_rows t).2.1.2]; omega

/-- The weights' array as the call finds it: the vector of weights reshaped to one row. -/
theorem weights_row (c : Dev nD) :
    (V m c main_v0 : S1x2048.Idx → EReal) = shapeCast S1x2048 (weights m c) shapeCasts_S2048_S1x2048 := by
  show StableHlo.after hostOps0 (fun b => m (c, b)) (Proc.devRef .tc main_v0) = _
  after_results
  rfl

/-- Every point's block of the weights is that row: entry `k` is weight `k`. -/
theorem wblk_apply (c : Dev nD) (t : Fin cfg0.N) (k : Fin 2048) :
    wblk m c t (ix2 (0 : Fin 1) k) = weights m c (ix1 k) := by
  unfold wblk iblk
  rw [View.read_apply]
  show V m c main_v0 _ = _
  rw [weights_row]
  refine Eq.trans (congrArg _ ?_) (shapeCast_a_1a_apply (weights m c) shapeCasts_S2048_S1x2048 (0 : Fin 1) k)
  funext a
  apply Fin.ext
  match a with
  | ⟨0, _⟩ => show win0_2.index t 0 * 1 + 1 * 0 = 0; rw [(index_rows t).2.2.1]
  | ⟨1, _⟩ => show win0_2.index t 1 * 2048 + 1 * k.val = k.val; rw [(index_rows t).2.2.2]; omega

/-- A point's contribution is the sum of the losses of its 256 rows. -/
theorem tile_eq (c : Dev nD) (t : Fin cfg0.N) :
    ∑ p : Fin 256, Ideal.div (∑ k : Fin 2048, sqTerm (oblk m c t (ix2 p k)) (tblk m c t (ix2 p k)) (wblk m c t (ix2 (0 : Fin 1) k)))
        (∑ _k : Fin 2048, ((1 : ℝ) : EReal))
      = tileSum (rowG m c) t.val := by
  have hN : t.val < 64 := lt_of_lt_of_eq t.isLt (show cfg0.N = 64 from N_0)
  unfold tileSum
  refine Finset.sum_congr rfl fun p _ => ?_
  have hp : 256 * t.val + p.val < 16384 := by have := p.isLt; omega
  rw [ext_of_lt _ _ hp]
  unfold rowG rowLoss
  refine congrArg₂ Ideal.div (Finset.sum_congr rfl fun k _ => ?_) rfl
  rw [oblk_apply m c t p k hp, tblk_apply m c t p k hp, wblk_apply m c t k]

/-! ## The accumulator and the output block, point by point -/

/-- The accumulator after adding point `t`'s tile to `acc`, and the reset's value. -/
abbrev step (c : Dev nD) (t : Fin cfg0.N) (acc : FVec Ideal S1x1 .f32) : FVec Ideal S1x1 .f32 :=
  k0_pay2 (F := Ideal) (oblk m c t) (tblk m c t) (wblk m c t) acc
abbrev zeroAcc : FVec Ideal S1x1 .f32 := k0_pay1 (F := Ideal)

/-- A 1 × 1 block that holds `v` at its one index is the constant `v`. -/
theorem const_of_apply (X : FVec Ideal S1x1 .f32) (v : EReal) (h : X (ix2 (0 : Fin 1) (0 : Fin 1)) = v) : X = fun _ => v :=
  funext fun i => by rw [idx11_eq i]; exact h

/-- Adding a tile: the one entry grows by the sum of the tile's row losses. -/
theorem step_eq (c : Dev nD) (t : Fin cfg0.N) (acc : FVec Ideal S1x1 .f32) :
    step m c t acc = fun _ => acc (ix2 (0 : Fin 1) (0 : Fin 1)) + tileSum (rowG m c) t.val :=
  const_of_apply (step m c t acc) (acc (ix2 (0 : Fin 1) (0 : Fin 1)) + tileSum (rowG m c) t.val)
    ((Tile.accumulate_apply (oblk m c t) (tblk m c t) (wblk m c t) acc).trans (congrArg (acc _ + ·) (tile_eq m c t)))

/-- At the first point both end at the tile's contribution added to the reset's zero. -/
theorem pair_first (c : Dev nD) (t : Fin cfg0.N) (h0 : t.val % 64 = 0) :
    outsAt0 m c t.val t.isLt = ((step m c t zeroAcc : Vec Ideal S1x1 .f32), (step m c t zeroAcc : Vec Ideal S1x1 .f32)) := by
  rw [outsAt0_A m c t h0]
  exact Prod.ext
    (Pieces.out_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t))
    (Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t))

/-- At a later point both end at the tile's contribution added to what the point before left in the accumulator. -/
theorem pair_later (c : Dev nD) (t : Fin cfg0.N) (h0 : ¬t.val % 64 = 0) :
    outsAt0 m c t.val t.isLt
      = ((step m c t (outsAt0 m c (t.val - 1) (Nat.lt_of_le_of_lt (Nat.sub_le _ _) t.isLt)).2 : Vec Ideal S1x1 .f32),
         (step m c t (outsAt0 m c (t.val - 1) (Nat.lt_of_le_of_lt (Nat.sub_le _ _) t.isLt)).2 : Vec Ideal S1x1 .f32)) := by
  rw [outsAt0_B m c t h0]
  exact Prod.ext
    (Pieces.out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2)
    (Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2)

/-- The tile sums up to `n`, as a 1 × 1 block. -/
abbrev sumsTo (c : Dev nD) (n : ℕ) : Vec Ideal S1x1 .f32 := fun _ => partialSum (rowG m c) n

/-- After point `n` the output block and the accumulator both hold the tile sums up to `n`. -/
theorem carried_eq (c : Dev nD) : ∀ (n : ℕ) (h : n < cfg0.N), outsAt0 m c n h = (sumsTo m c n, sumsTo m c n)
  | 0, h => by
    have e : step m c ⟨0, h⟩ zeroAcc = sumsTo m c 0 := by
      rw [step_eq]
      funext _
      show (k0_pay1 (F := Ideal)) _ + tileSum (rowG m c) 0 = partialSum (rowG m c) 0
      rw [Tile.reset_apply, zero_add, partialSum_zero]
    exact (pair_first m c ⟨0, h⟩ rfl).trans (Prod.ext e e)
  | n + 1, h => by
    have hN : cfg0.N = 64 := N_0
    have hB : ¬(⟨n + 1, h⟩ : Fin cfg0.N).val % 64 = 0 := by dsimp only; omega
    have ih : (outsAt0 m c n (Nat.lt_of_succ_lt h)).2 = sumsTo m c n := by rw [carried_eq c n]
    have e : step m c ⟨n + 1, h⟩ (outsAt0 m c n (Nat.lt_of_succ_lt h)).2 = sumsTo m c (n + 1) := by
      rw [step_eq, ih]
      funext _
      show partialSum (rowG m c) n + tileSum (rowG m c) (n + 1) = partialSum (rowG m c) (n + 1)
      rw [partialSum_succ]
    exact (pair_later m c ⟨n + 1, h⟩ hB).trans (Prod.ext e e)

/-! ## The result array -/

/-- The loss of the launched arrays, -/
abbrev lossOf (c : Dev nD) : EReal :=
  loss (fun r k => outputs m c (ix2 r k)) (fun r k => targets m c (ix2 r k)) (fun k => weights m c (ix1 k))

/-- as the contents of the 1 × 1 result array of the call. -/
abbrev result (c : Dev nD) : Buf (Elt Ideal) ((c : Thread nD τ).loc main_v1) := fun _ => lossOf m c

/-- The output window's block is always block `(0, 0)`, of extent 1 × 1: the whole result array. -/
theorem index_out : ∀ t : Fin cfg0.N, (win0_3.index t 0 = 0 ∧ win0_3.index t 1 = 0)
    ∧ (win0_3.xsize (grid0.coords t) 0 = 1 ∧ win0_3.xsize (grid0.coords t) 1 = 1) :=
  (by decide +kernel : ∀ t : Fin grid0.N, (win0_3.index t 0 = 0 ∧ win0_3.index t 1 = 0)
    ∧ (win0_3.xsize (grid0.coords t) 0 = 1 ∧ win0_3.xsize (grid0.coords t) 1 = 1))

/-- After the last tile the sums are the loss. -/
theorem sumsTo_last (c : Dev nD) : (sumsTo m c 63 : Vec Ideal S1x1 .f32) = result m c := by
  funext _
  show partialSum (rowG m c) 63 = lossOf m c
  rw [partialSum_last]
  rfl

/-- The one write-back, after the last point, writes the sum over all tiles: the loss. -/
theorem flushed_eq (c : Dev nD) (t : Fin cfg0.N) (hf : (cfg0.win 3).flush t = true) :
    (dats m 0 c).flushed 3 t = ((cfg0.win 3).blk t).view.read (Elt Ideal) (result m c) := by
  have hN : cfg0.N = 64 := N_0
  have h63 : t.val = 63 := by have := (flush0_3 t).mp hf; have := t.isLt; omega
  have hafter : (dats m 0 c).after 3 t = result m c := by
    rw [after0_3, carried_eq m c t.val t.isLt]
    show sumsTo m c t.val = _
    rw [h63]
    exact sumsTo_last m c
  show (cfg0.win 3).cut (grid0.coords t) ((dats m 0 c).after 3 t) = _
  rw [hafter]
  have hz' : (fun a => win0_3.index t a * main_v1.ty.shape.size a) = fun _ => 0 := funext fun a => by
    match a with
    | ⟨0, _⟩ => show win0_3.index t 0 * 1 = 0; rw [(index_out t).1.1]
    | ⟨1, _⟩ => show win0_3.index t 1 * 1 = 0; rw [(index_out t).1.2]
  exact (Memref.read_access_unit_zero (Elt Ideal) main_v1 hz' (fun a => by rw [congrFun hz' a]; simp) (result m c)).symm

/-- The last grid point. -/
abbrev lastPt : Fin cfg0.N := ⟨63, by rw [show cfg0.N = 64 from N_0]; decide⟩

/-- The last point's block is the whole 1 × 1 array, so the array ends at the loss. -/
theorem final_eq (c : Dev nD) : (dats m 0 c).arrAt 3 cfg0.N = result m c :=
  (dats m 0 c).arrAt_eq_of_cover 3 (result m c) (flushed_eq m c) fun i =>
    ⟨lastPt, (flush0_3 lastPt).mpr rfl, by
      show i ∈ ((View.whole main_v1).slice (win0_3.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index lastPt 0 * win0_3.size 0 ≤ (i 0 : Nat) ∧ (i 0 : Nat) < win0_3.index lastPt 0 * win0_3.size 0 + win0_3.xsize (grid0.coords lastPt) 0
        rw [(index_out lastPt).1.1, (index_out lastPt).2.1]; omega
      | ⟨1, _⟩ =>
        show win0_3.index lastPt 1 * win0_3.size 1 ≤ (i 1 : Nat) ∧ (i 1 : Nat) < win0_3.index lastPt 1 * win0_3.size 1 + win0_3.xsize (grid0.coords lastPt) 1
        rw [(index_out lastPt).1.2, (index_out lastPt).2.2]; omega⟩

/-! ## The run -/

/-- After the call the host reads the 1 × 1 result as a scalar: the loss. -/
theorem tail_eq (c : Dev nD) :
    Pipeline.afterTail₀ cfgs (dats m) 0 (V0 m) [hostOps1] c main_v2 = fun _ => lossOf m c := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = result m c :=
    (Pipeline.withArrays_arr spec0 launch0.win.arr_inj c _ _ 3).trans (final_eq m c)
  rw [hw]
  rfl

/-- The run, read: the scalar result ends at the loss of the launched arrays, which end unchanged. -/
theorem run : θ_run defs (onTc (τ := τ) (main (F := Ideal))) ⟨m, fun _ => 0, ρ⟩ fun r => ∀ c : Dev nD,
      r.2.mem ((c.tc : Thread nD τ).loc main_v2) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.LossRun

end
-- ==== Proof.RefValue.lean ====
/-
  The reference's result read index by index: the host program's last value is the sum over all rows of the
  per-row quotient (sum of the squared, masked, weighted residuals) / (sum of the mask values).

  The host computes the mask as the negation of "the target differs from itself" in the unordered reading; nothing
  is unordered among the extended reals, so the bit is set at every entry, as in the kernel.
-/
import proofs.«160999_j47339129536786_1_alg».proof.Proof.Gen.ReferenceIdeal.Run
import proofs.«160999_j47339129536786_1_alg».proof.Proof.Gen.ReferenceIdeal.Read
import proofs.«160999_j47339129536786_1_alg».proof.Proof.Spec
import proofs.«160999_j47339129536786_1_alg».proof.Proof.LibColumnSum
import Idealize.ShloMosaic.Lib.ValueIdx

noncomputable section

namespace Cert.ReferenceIdeal.RefValue

open Idealize.ShloMosaic Idealize.ShloMosaic.ValueIdx Cert.ReferenceIdeal Cert.ReferenceIdeal.Read
open Cert.RowMse Cert.ColumnSum

/-- The host's mask bit of any entry is set. -/
theorem mask_bit (t : EReal) : ~~~(Ideal.cmp .une t t) = 1#1 := by
  rw [cmp_une_self]; decide

/-- The index of feature `k` in the weights, through the two broadcasts that lay them along every row. -/
theorem weight_idx (r : Fin 16384) (k : Fin 2048) : idx_main_v6 (idx_main_v7 (ix2 r k)) = ix1 k :=
  funext fun a => match a with | ⟨0, _⟩ => rfl

/-- Row `r`'s `k`-th summand index is `(r, k)`, for the terms and for the mask values alike. -/
theorem row_idx (r : Fin 16384) (k : Fin 2048) : idx_main_v10 (ix1 r) k = ix2 r k :=
  funext fun a => match a with | ⟨0, _⟩ => rfl | ⟨1, _⟩ => rfl
theorem row_idx' (r : Fin 16384) (k : Fin 2048) : idx_main_v11 (ix1 r) k = ix2 r k :=
  funext fun a => match a with | ⟨0, _⟩ => rfl | ⟨1, _⟩ => rfl

/-- The host's mask value at an entry is `1`. -/
theorem maskValue_apply (x1 : (⟨S16384x2048, .f32⟩ : BufTy).Contents (Elt Ideal)) (i : S16384x2048.Idx) :
    val_main_v2 (F := Ideal) x1 i = ((1 : ℝ) : EReal) := by
  rw [val_main_v2_apply, val_main_v1_apply, val_main_v0_apply, Ideal.cmpf_def, mask_bit]
  exact one_toNat_cast

/-- One entry's masked, weighted residual on the host. -/
theorem residual_apply (x0 x1 : (⟨S16384x2048, .f32⟩ : BufTy).Contents (Elt Ideal)) (x2 : (⟨S2048, .f32⟩ : BufTy).Contents (Elt Ideal))
    (r : Fin 16384) (k : Fin 2048) :
    val_main_v8 (F := Ideal) x0 x1 x2 (ix2 r k) = (x1 (ix2 r k) - x0 (ix2 r k)) * ((1 : ℝ) : EReal) * x2 (ix1 k) := by
  rw [val_main_v8_apply, val_main_v5_apply, maskValue_apply, val_main_v4_apply, val_main_v3_apply, val_main_v1_apply,
    val_main_v0_apply, Ideal.cmpf_def, mask_bit, select_one, val_main_v7_apply, val_main_v6_apply, weight_idx]
  rfl

/-- The reference's result is the loss of the three arrays read by coordinates. -/
theorem result_eq (x0 x1 : (⟨S16384x2048, .f32⟩ : BufTy).Contents (Elt Ideal)) (x2 : (⟨S2048, .f32⟩ : BufTy).Contents (Elt Ideal))
    (i : S_.Idx) :
    val_main_v13 (F := Ideal) x0 x1 x2 i
      = loss (fun r k => x0 (ix2 r k)) (fun r k => x1 (ix2 r k)) (fun k => x2 (ix1 k)) := by
  rw [val_main_v13_apply, val_main_cst_2_apply, sum_idx1]
  show Ideal.ofBits .f32 0x00000000#32 + _ = _
  rw [Ideal.ofBits_zero_f32, zero_add]
  unfold loss
  refine Finset.sum_congr rfl fun r _ => ?_
  rw [val_main_v12_apply, val_main_v10_apply, val_main_v11_apply, val_main_cst_0_apply, val_main_cst_1_apply]
  show Ideal.div (Ideal.ofBits .f32 0x00000000#32 + _) (Ideal.ofBits .f32 0x00000000#32 + _) = _
  rw [Ideal.ofBits_zero_f32, zero_add, zero_add]
  unfold rowLoss
  refine congrArg₂ Ideal.div (Finset.sum_congr rfl fun k _ => ?_) (Finset.sum_congr rfl fun k _ => ?_)
  · rw [row_idx, val_main_v9_apply, residual_apply]
    rfl
  · rw [row_idx', maskValue_apply]

end Cert.ReferenceIdeal.RefValue

end
-- ==== Proof.lean ====
/-
  A masked, feature-weighted mean squared error, reduced to one number: the kernel against its reference.

  For outputs `O` and targets `T` (16384 × 2048) and feature weights `W` (2048), both programs compute
      Σ_r ( Σ_k ((T r k − O r k) · μ r k · W k)² ) / ( Σ_k μ r k ),
  where `μ r k` is `1` when `T r k` is a number and `0` otherwise, and a target that is not a number counts as
  `0`. Over the extended reals every entry is a number, so `μ` is `1` everywhere on both sides (Proof/Spec.lean).

  The reference sums the 16384 row quotients in one reduction (Proof/RefValue.lean: its result is `RowMse.loss` of
  the three arrays, read off the generated run one operation at a time). The kernel walks 64 tiles of 256 rows: each
  grid point adds its tile's 256 row quotients to an accumulator kept across points, reset to zero at the first
  point, and copies the accumulator to the 1 × 1 output block, which is written back after the last point and then
  read as a scalar by a reshape (Proof/KernelTile.lean: one point's arithmetic at an index; Proof/KernelPieces.lean:
  what each point leaves in the accumulator and the block; Proof/KernelRun.lean: the induction over the points, the
  write-back, the host reshape). The two results agree because addition of extended reals is commutative and
  associative: the sum over all rows is the running sum of the 64 tile sums (`RowMse.partialSum_last`). Nothing
  here needs the inputs to be finite.

  The frames of the two kernel programs are the generated ones; the reference's frame is its generated run with the
  result dropped; the idealization rewrote nothing, so `preserves` is `True`.
-/
import proofs.«160999_j47339129536786_1_alg».proof.Defs
import proofs.«160999_j47339129536786_1_alg».proof.Proof.Gen.Kernel
import proofs.«160999_j47339129536786_1_alg».proof.Proof.Gen.Kernel.Frame
import proofs.«160999_j47339129536786_1_alg».proof.Proof.Gen.KernelIdeal
import proofs.«160999_j47339129536786_1_alg».proof.Proof.Gen.KernelIdeal.Frame
import proofs.«160999_j47339129536786_1_alg».proof.Proof.Gen.ReferenceIdeal
import proofs.«160999_j47339129536786_1_alg».proof.Proof.Gen.ReferenceIdeal.Run
import proofs.«160999_j47339129536786_1_alg».proof.Proof.Gen.ReferenceIdeal.Read
import proofs.«160999_j47339129536786_1_alg».proof.Proof.Gen.Pre_finite_inputs
import proofs.«160999_j47339129536786_1_alg».proof.Proof.KernelRun
import proofs.«160999_j47339129536786_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel's scalar result ends at the loss of its arguments, and so does the reference's,
    of arguments that agree. -/
theorem algebraic : Cert.algebraic_KernelIdeal_ReferenceIdeal := by
  intro m ρ m' ρ' _ hagree
  refine ⟨fun c => (fun _ => Cert.KernelIdeal.LossRun.lossOf m c), Cert.KernelIdeal.LossRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq]
  funext i
  rw [Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
